-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_

variable [Facts]

def fn {F : FTy → Type} [FloatOps F] (main_arg0 : FVec F S4000000x3 .f32) (main_arg1 : FVec F S4000000x4 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x4 .f32 := Host.absf main_arg1
  let main_cst_0 : FVec F S_ .f32 := constant S_ .f32 0x7F800000#32
  let main_v5 : FVec F S4000000x4 .f32 := broadcastInDim S4000000x4 ![] bcast_S_S4000000x4 main_cst_0
  let main_v6 : IVec S4000000x4 1 := cmpf .olt main_v4 main_v5
  let main_c_1 : IVec S_ 1 := constantI S_ 1 1#1
  let main_v7 : IVec S_ 1 := (fun x v => Host.reduce IntOp.andi x v reducesTo_S4000000x4_S_d0_1 h_S_) main_v6 main_c_1
  let main_v8 : IVec S_ 1 := andi main_v3 main_v7
  main_v8
-- ==== Kernel.lean ====
abbrev S4000000x3 : Shape := ⟨2, ![4000000, 3]⟩
abbrev S4000000x4 : Shape := ⟨2, ![4000000, 4]⟩
abbrev S4000000x9 : Shape := ⟨2, ![4000000, 9]⟩
abbrev S8000x3 : Shape := ⟨2, ![8000, 3]⟩
abbrev S8000x4 : Shape := ⟨2, ![8000, 4]⟩
abbrev S8000x9 : Shape := ⟨2, ![8000, 9]⟩
abbrev S8000x1 : Shape := ⟨2, ![8000, 1]⟩
abbrev S8000 : Shape := ⟨1, ![8000]⟩
abbrev S4000000x3x3 : Shape := ⟨3, ![4000000, 3, 3]⟩

abbrev nBuf : Space → Nat
  | .hbm => 4
  | .vmem => 6
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x9, .f32⟩
  | .hbm, ⟨3, _⟩ => ⟨S4000000x3x3, .f32⟩
  | .local _ .vmem, ⟨0, _⟩ => ⟨S8000x3, .f32⟩
  | .local _ .vmem, ⟨1, _⟩ => ⟨S8000x3, .f32⟩
  | .local _ .vmem, ⟨2, _⟩ => ⟨S8000x4, .f32⟩
  | .local _ .vmem, ⟨3, _⟩ => ⟨S8000x4, .f32⟩
  | .local _ .vmem, ⟨4, _⟩ => ⟨S8000x9, .f32⟩
  | .local _ .vmem, ⟨5, _⟩ => ⟨S8000x9, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x9 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8000x3_S8000x3_0_0 : ∀ a, (![0, 0] : Fin 2 → Nat) a + S8000x3.size a ≤ S8000x3.size a
  h_S8000x3 : 0 < S8000x3.numel
  inb_S8000x4_S8000x4_0_0 : ∀ a, (![0, 0] : Fin 2 → Nat) a + S8000x4.size a ≤ S8000x4.size a
  h_S8000x4 : 0 < S8000x4.numel
  slices_S8000x4_o0_0_S8000x1 : S8000x4.Slices ![0, 0] S8000x1
  shapeCasts_S8000x1_S8000 : S8000x1.ShapeCasts S8000
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  slices_S8000x3_o0_0_S8000x1 : S8000x3.Slices ![0, 0] S8000x1
  slices_S8000x3_o0_1_S8000x1 : S8000x3.Slices ![0, 1] S8000x1
  slices_S8000x3_o0_2_S8000x1 : S8000x3.Slices ![0, 2] S8000x1
  shapeCasts_S8000_S8000x1 : S8000.ShapeCasts S8000x1
  concatenates_S8000x1_S8000x1_S8000x1_S8000x1_S8000x1_S8000x1_S8000x1_S8000x1_S8000x1_S8000x9_d1 : Shape.Concatenates [S8000x1, S8000x1, S8000x1, S8000x1, S8000x1, S8000x1, S8000x1, S8000x1, S8000x1] S8000x9 1
  inb_S8000x9_S8000x9_0_0 : ∀ a, (![0, 0] : Fin 2 → Nat) a + S8000x9.size a ≤ S8000x9.size a
  h_S8000x9 : 0 < S8000x9.numel
  shapeCasts_S4000000x9_S4000000x3x3 : S4000000x9.ShapeCasts S4000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S4000000x3.size a
  hwx0_0 : ∀ i : grid0.Coords, EltTy.bits .f32 = 32 ∨ (Rect.block (s := S4000000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S4000000x4.size a
  hwx0_1 : ∀ i : grid0.Coords, EltTy.bits .f32 = 32 ∨ (Rect.block (s := S4000000x4) S8000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x9.size a ≤ S4000000x9.size a
  hwx0_2 : ∀ i : grid0.Coords, EltTy.bits .f32 = 32 ∨ (Rect.block (s := S4000000x9) S8000x9.size (cc0_transform_2 i) (hinb0_2 i)).WholeWords (EltTy.packing .f32)

variable [Facts₀]

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8000x9.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S_ : Shape := ⟨0, ![]⟩
abbrev S4000000 : Shape := ⟨1, ![4000000]⟩
abbrev S4000000x1 : Shape := ⟨2, ![4000000, 1]⟩
abbrev S4000000x9 : Shape := ⟨2, ![4000000, 9]⟩
abbrev S4000000x3x3 : Shape := ⟨3, ![4000000, 3, 3]⟩
abbrev S4000000x1x3 : Shape := ⟨3, ![4000000, 1, 3]⟩

abbrev nBuf : Space → Nat
  | .hbm => 100
  | .vmem => 0
  | .smem => 0
  | _ => 0

abbrev bufTy : (tb : Table) → Fin (tcTables nBuf tb) → BufTy
  | .hbm, ⟨0, _⟩ => ⟨S4000000x3, .f32⟩
  | .hbm, ⟨1, _⟩ => ⟨S4000000x4, .f32⟩
  | .hbm, ⟨2, _⟩ => ⟨S4000000x3, .f32⟩
  | .hbm, ⟨3, _⟩ => ⟨S4000000x4, .f32⟩
  | .hbm, ⟨4, _⟩ => ⟨S_, .f32⟩
  | .hbm, ⟨5, _⟩ => ⟨S4000000, .f32⟩
  | .hbm, ⟨6, _⟩ => ⟨S4000000x1, .f32⟩
  | .hbm, ⟨7, _⟩ => ⟨S4000000x1, .f32⟩
  | .hbm, ⟨8, _⟩ => ⟨S_, .f32⟩
  | .hbm, ⟨9, _⟩ => ⟨S_, .f32⟩
  | .hbm, ⟨10, _⟩ => ⟨S4000000x1, .f32⟩
  | .hbm, ⟨11, _⟩ => ⟨S4000000x1, .f32⟩
  | .hbm, ⟨12, _⟩ => ⟨S4000000x4, .f32⟩
  | .hbm, ⟨13, _⟩ => ⟨S4000000x4, .f32⟩
  | .hbm, ⟨14, _⟩ => ⟨S4000000x1, .f32⟩
  | .hbm, ⟨15, _⟩ => ⟨S4000000, .f32⟩
  | .hbm, ⟨16, _⟩ => ⟨S4000000x1, .f32⟩
  | .hbm, ⟨17, _⟩ => ⟨S4000000, .f32⟩
  | .hbm, ⟨18, _⟩ => ⟨S4000000x1, .f32⟩
  | .hbm, ⟨19, _⟩ => ⟨S4000000, .f32⟩
  | .hbm, ⟨20, _⟩ => ⟨S4000000x1, .f32⟩
  | .hbm, ⟨21, _⟩ => ⟨S4000000, .f32⟩
  | .hbm, ⟨22, _⟩ => ⟨S4000000, .f32⟩
  | .hbm, ⟨23, _⟩ => ⟨S4000000, .f32⟩
  | .hbm, ⟨24, _⟩ => ⟨S4000000, .f32⟩
  | .hbm, ⟨25, _⟩ => ⟨S_, .f32⟩
  | .hbm, ⟨26, _⟩ => ⟨S4000000, .f32⟩
  | .hbm, ⟨27, _⟩ => ⟨S4000000, .f32⟩
  | .hbm, ⟨28, _⟩ => ⟨S_, .f32⟩
  | .hbm, ⟨29, _⟩ => ⟨S4000000, .f32⟩
  | .hbm, ⟨30, _⟩ => ⟨S4000000, .f32⟩
  | .hbm, ⟨31, _⟩ => ⟨S4000000, .f32⟩
  | .hbm, ⟨32, _⟩ => ⟨S4000000, .f32⟩
  | .hbm, ⟨33, _⟩ => ⟨S4000000, .f32⟩
  | .hbm, ⟨34, _⟩ => ⟨S_, .f32⟩
  | .hbm, ⟨35, _⟩ => ⟨S4000000, .f32⟩
  | .hbm, ⟨36, _⟩ => ⟨S4000000, .f32⟩
  | .hbm, ⟨37, _⟩ => ⟨S4000000, .f32⟩
  | .hbm, ⟨38, _⟩ => ⟨S4000000, .f32⟩
  | .hbm, ⟨39, _⟩ => ⟨S4000000, .f32⟩
  | .hbm, ⟨40, _⟩ => ⟨S_, .f32⟩
  | .hbm, ⟨41, _⟩ => ⟨S4000000, .f32⟩
  | .hbm, ⟨42, _⟩ => ⟨S4000000, .f32⟩
  | .hbm, ⟨43, _⟩ => ⟨S4000000, .f32⟩
  | .hbm, ⟨44, _⟩ => ⟨S4000000, .f32⟩
  | .hbm, ⟨45, _⟩ => ⟨S4000000, .f32⟩
  | .hbm, ⟨46, _⟩ => ⟨S_, .f32⟩
  | .hbm, ⟨47, _⟩ => ⟨S4000000, .f32⟩
  | .hbm, ⟨48, _⟩ => ⟨S4000000, .f32⟩
  | .hbm, ⟨49, _⟩ => ⟨S4000000, .f32⟩
  | .hbm, ⟨50, _⟩ => ⟨S4000000, .f32⟩
  | .hbm, ⟨51, _⟩ => ⟨S4000000, .f32⟩
  | .hbm, ⟨52, _⟩ => ⟨S_, .f32⟩
  | .hbm, ⟨53, _⟩ => ⟨S4000000, .f32⟩
  | .hbm, ⟨54, _⟩ => ⟨S4000000, .f32⟩
  | .hbm, ⟨55, _⟩ => ⟨S_, .f32⟩
  | .hbm, ⟨56, _⟩ => ⟨S4000000, .f32⟩
  | .hbm, ⟨57, _⟩ => ⟨S4000000, .f32⟩
  | .hbm, ⟨58, _⟩ => ⟨S4000000, .f32⟩
  | .hbm, ⟨59, _⟩ => ⟨S4000000, .f32⟩
  | .hbm, ⟨60, _⟩ => ⟨S4000000, .f32⟩
  | .hbm, ⟨61, _⟩ => ⟨S_, .f32⟩
  | .hbm, ⟨62, _⟩ => ⟨S4000000, .f32⟩
  | .hbm, ⟨63, _⟩ => ⟨S4000000, .f32⟩
  | .hbm, ⟨64, _⟩ => ⟨S4000000, .f32⟩
  | .hbm, ⟨65, _⟩ => ⟨S4000000, .f32⟩
  | .hbm, ⟨66, _⟩ => ⟨S4000000, .f32⟩
  | .hbm, ⟨67, _⟩ => ⟨S_, .f32⟩
  | .hbm, ⟨68, _⟩ => ⟨S4000000, .f32⟩
  | .hbm, ⟨69, _⟩ => ⟨S4000000, .f32⟩
  | .hbm, ⟨70, _⟩ => ⟨S4000000, .f32⟩
  | .hbm, ⟨71, _⟩ => ⟨S4000000, .f32⟩
  | .hbm, ⟨72, _⟩ => ⟨S4000000, .f32⟩
  | .hbm, ⟨73, _⟩ => ⟨S_, .f32⟩
  | .hbm, ⟨74, _⟩ => ⟨S4000000, .f32⟩
  | .hbm, ⟨75, _⟩ => ⟨S4000000, .f32⟩
  | .hbm, ⟨76, _⟩ => ⟨S4000000, .f32⟩
  | .hbm, ⟨77, _⟩ => ⟨S4000000, .f32⟩
  | .hbm, ⟨78, _⟩ => ⟨S4000000, .f32⟩
  | .hbm, ⟨79, _⟩ => ⟨S_, .f32⟩
  | .hbm, ⟨80, _⟩ => ⟨S4000000, .f32⟩
  | .hbm, ⟨81, _⟩ => ⟨S4000000, .f32⟩
  | .hbm, ⟨82, _⟩ => ⟨S_, .f32⟩
  | .hbm, ⟨83, _⟩ => ⟨S4000000, .f32⟩
  | .hbm, ⟨84, _⟩ => ⟨S4000000, .f32⟩
  | .hbm, ⟨85, _⟩ => ⟨S4000000x1, .f32⟩
  | .hbm, ⟨86, _⟩ => ⟨S4000000x1, .f32⟩
  | .hbm, ⟨87, _⟩ => ⟨S4000000x1, .f32⟩
  | .hbm, ⟨88, _⟩ => ⟨S4000000x1, .f32⟩
  | .hbm, ⟨89, _⟩ => ⟨S4000000x1, .f32⟩
  | .hbm, ⟨90, _⟩ => ⟨S4000000x1, .f32⟩
  | .hbm, ⟨91, _⟩ => ⟨S4000000x1, .f32⟩
  | .hbm, ⟨92, _⟩ => ⟨S4000000x1, .f32⟩
  | .hbm, ⟨93, _⟩ => ⟨S4000000x1, .f32⟩
  | .hbm, ⟨94, _⟩ => ⟨S4000000x9, .f32⟩
  | .hbm, ⟨95, _⟩ => ⟨S4000000x3x3, .f32⟩
  | .hbm, ⟨96, _⟩ => ⟨S4000000x1x3, .f32⟩
  | .hbm, ⟨97, _⟩ => ⟨S4000000x3x3, .f32⟩
  | .hbm, ⟨98, _⟩ => ⟨S4000000x3x3, .f32⟩
  | .hbm, ⟨99, _⟩ => ⟨S4000000x3x3, .f32⟩
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_7 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_9 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_10 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩

abbrev nD : Nat := 1
abbrev τ : Topo := Topo.v7x

variable {F : FTy → Type} [FloatOps F]

class Facts₀ : Prop where
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S_S4000000x1 : S_.BroadcastsInDim S4000000x1 (![] : Fin 0 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x1_S4000000x1_S4000000x1_S4000000x1_S4000000x1_S4000000x1_S4000000x9_d1 : Shape.Concatenates [S4000000x1, S4000000x1, S4000000x1, S4000000x1, S4000000x1, S4000000x1, S4000000x1, S4000000x1, S4000000x1] S4000000x9 1
  shapeCasts_S4000000x9_S4000000x3x3 : S4000000x9.ShapeCasts S4000000x3x3
  bcast_S4000000x3_S4000000x1x3_0_2 : S4000000x3.BroadcastsInDim S4000000x1x3 (![0, 2] : Fin 2 → Fin S4000000x1x3.rank)
  bcast_S4000000x1x3_S4000000x3x3_0_1_2 : S4000000x1x3.BroadcastsInDim S4000000x3x3 (![0, 1, 2] : Fin 3 → Fin S4000000x3x3.rank)
  dot_S4000000x3x3_S4000000x3x3_S4000000x3x3_2_2_1_1_0_0_wf : DotDims.WF S4000000x3x3 S4000000x3x3 S4000000x3x3 [2] [2] [1] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf

class Facts : Prop extends Facts₀ where

variable [Facts]
-- ==== Proof.Spec.lean ====
/-
  The covariance of one row, on the extended reals.

  A row carries three log-scales and a quaternion `a = (a₀, a₁, a₂, a₃)`. The quaternion is divided by its
  Euclidean norm clamped from below at a positive threshold `eps`; the unit quaternion `u = (w, x, y, z)` gives the
  nine entries of a rotation matrix `R`; column `j` of `R` is scaled by `s j` (the exponential of the row's
  `j`-th log-scale), and the covariance is `(R S) (R S)ᵀ`, entry `(i, k)` being `∑ j, (R S) i j * (R S) k j`.

  Two spellings of the same numbers meet here. One multiplies each component by the reciprocal `1 / n` of the
  clamped norm `n`, the other divides each component by `n`: since `n ≥ eps > 0` is never zero, both are the
  product with `n⁻¹` on every extended real, the infinities included. One writes each of the nine covariance
  entries as a parenthesised three-term sum of products and copies the three entries above the diagonal below it,
  the other sums over the contracted index: commutativity of the product and the order of a three-term sum.
-/
import Idealize.ShloMosaic.PureOps.Ideal
import Idealize.ShloMosaic.PureOps.Ideal.Laws
import Mathlib.Algebra.BigOperators.Fin
import Idealize.ShloMosaic.Lib.ValueIdx

noncomputable section

namespace Cert.Cov

open Idealize.ShloMosaic

/-- The clamp threshold, `1` and `2`: the extended reals the three printed words denote. -/
def eps : EReal := Ideal.ofBits .f32 0x2B8CBCCC#32
def one : EReal := Ideal.ofBits .f32 0x3F800000#32
def two : EReal := Ideal.ofBits .f32 0x40000000#32

/-- The threshold is the positive dyadic `9223372 · 2⁻⁶³`. -/
theorem eps_eq : eps = ((9223372 / 2 ^ 63 : ℝ) : EReal) := by
  unfold eps
  simp [Ideal.ofBits, Ideal.ieee, -EReal.coe_mul]; norm_num

theorem eps_pos : 0 < eps := by
  rw [eps_eq]; exact_mod_cast (by norm_num : (0 : ℝ) < 9223372 / 2 ^ 63)

/-- A value clamped from below at the threshold is not zero, on either side of the `max`. -/
theorem max_eps_ne_zero (v : EReal) : max v eps ≠ 0 :=
  (lt_of_lt_of_le eps_pos (le_max_right v eps)).ne'

theorem eps_max_ne_zero (v : EReal) : max eps v ≠ 0 :=
  (lt_of_lt_of_le eps_pos (le_max_left eps v)).ne'

/-- The sum of the four squares, added left to right. -/
def sq4 (a : Fin 4 → EReal) : EReal := ((a 0 * a 0 + a 1 * a 1) + a 2 * a 2) + a 3 * a 3

/-- The clamped norm. -/
def nrm (a : Fin 4 → EReal) : EReal := max (Ideal.sqrt (sq4 a)) eps

/-- The unit quaternion: each component times the reciprocal of the clamped norm. -/
def unit (a : Fin 4 → EReal) (k : Fin 4) : EReal := a k * Ideal.div one (nrm a)

/-- Off zero, the product with the reciprocal is the quotient. -/
theorem mul_recip (v n : EReal) (hn : n ≠ 0) (h1 : one = 1) : v * Ideal.div one n = Ideal.div v n := by
  rw [Ideal.div, Ideal.div, if_neg hn, if_neg hn, h1, one_mul]

theorem one_eq : one = 1 := by
  unfold one
  simp [Ideal.ofBits, Ideal.ieee, -EReal.coe_mul]; norm_num

/-- Dividing a component by the norm clamped the other way round, with the squares summed from zero over the
    four components, is the unit quaternion's component. -/
theorem div_eq_unit (a : Fin 4 → EReal) (k : Fin 4) :
    Ideal.div (a k) (max eps (Ideal.sqrt (Ideal.ofBits .f32 0x00000000#32 + ∑ j : Fin 4, a j * a j))) = unit a k := by
  rw [Ideal.ofBits_zero_f32, zero_add, Fin.sum_univ_four, max_comm]
  exact (mul_recip (a k) _ (max_eps_ne_zero _) one_eq).symm

/-- The nine entries of the rotation matrix of a quaternion `(w, x, y, z) = (u 0, u 1, u 2, u 3)`, row-major. -/
def rot (u : Fin 4 → EReal) : Fin 9 → EReal
  | ⟨0, _⟩ => one - two * (u 2 * u 2 + u 3 * u 3)
  | ⟨1, _⟩ => two * (u 1 * u 2 - u 0 * u 3)
  | ⟨2, _⟩ => two * (u 1 * u 3 + u 0 * u 2)
  | ⟨3, _⟩ => two * (u 1 * u 2 + u 0 * u 3)
  | ⟨4, _⟩ => one - two * (u 1 * u 1 + u 3 * u 3)
  | ⟨5, _⟩ => two * (u 2 * u 3 - u 0 * u 1)
  | ⟨6, _⟩ => two * (u 1 * u 3 - u 0 * u 2)
  | ⟨7, _⟩ => two * (u 2 * u 3 + u 0 * u 1)
  | ⟨8, _⟩ => one - two * (u 1 * u 1 + u 2 * u 2)

/-- Position `3 i + j` of a row-major 3×3 matrix. -/
def c9 (i j : Fin 3) : Fin 9 := ⟨i.val * 3 + j.val, by have := i.isLt; have := j.isLt; omega⟩

/-- The rotation with column `j` scaled by `s j`. -/
def rs (s : Fin 3 → EReal) (u : Fin 4 → EReal) (i j : Fin 3) : EReal := rot u (c9 i j) * s j

/-- Entry `(i, k)` of `(R S) (R S)ᵀ`. -/
def cov (s : Fin 3 → EReal) (u : Fin 4 → EReal) (i k : Fin 3) : EReal := ∑ j : Fin 3, rs s u i j * rs s u k j

/-- The dot product of rows `i` and `k` of `R S`, its three products added left to right. -/
def dot3 (s : Fin 3 → EReal) (u : Fin 4 → EReal) (i k : Fin 3) : EReal :=
  (rs s u i 0 * rs s u k 0 + rs s u i 1 * rs s u k 1) + rs s u i 2 * rs s u k 2

/-- The nine entries as laid out row-major with the upper triangle copied below the diagonal. -/
def covK (s : Fin 3 → EReal) (u : Fin 4 → EReal) : Fin 9 → EReal
  | ⟨0, _⟩ => dot3 s u 0 0
  | ⟨1, _⟩ => dot3 s u 0 1
  | ⟨2, _⟩ => dot3 s u 0 2
  | ⟨3, _⟩ => dot3 s u 0 1
  | ⟨4, _⟩ => dot3 s u 1 1
  | ⟨5, _⟩ => dot3 s u 1 2
  | ⟨6, _⟩ => dot3 s u 0 2
  | ⟨7, _⟩ => dot3 s u 1 2
  | ⟨8, _⟩ => dot3 s u 2 2

theorem cov_eq_dot3 (s : Fin 3 → EReal) (u : Fin 4 → EReal) (i k : Fin 3) : cov s u i k = dot3 s u i k := by
  unfold cov dot3
  rw [Fin.sum_univ_three]

theorem dot3_comm (s : Fin 3 → EReal) (u : Fin 4 → EReal) (i k : Fin 3) : dot3 s u i k = dot3 s u k i := by
  unfold dot3
  rw [mul_comm (rs s u i 0), mul_comm (rs s u i 1), mul_comm (rs s u i 2)]

/-- The copied layout is the matrix product, entry by entry. -/
theorem covK_eq_cov (s : Fin 3 → EReal) (u : Fin 4 → EReal) (i k : Fin 3) : covK s u (c9 i k) = cov s u i k := by
  rw [cov_eq_dot3]
  fin_cases i <;> fin_cases k <;> first | rfl | exact dot3_comm s u _ _

/-! ## The whole arrays -/

open Idealize.ShloMosaic.ValueIdx

/-- Row `n`'s scales out of the array of log-scales, and its quaternion out of the array of quaternions. -/
def scales (a0 : (⟨2, ![4000000, 3]⟩ : Shape).Idx → EReal) (n : Fin 4000000) : Fin 3 → EReal := fun j => Ideal.exp (a0 (ix2 n j))
def quat (a1 : (⟨2, ![4000000, 4]⟩ : Shape).Idx → EReal) (n : Fin 4000000) : Fin 4 → EReal := fun k => a1 (ix2 n k)

/-- The result with each row's nine entries laid flat: entry `(n, c)`. -/
def flat (a0 : (⟨2, ![4000000, 3]⟩ : Shape).Idx → EReal) (a1 : (⟨2, ![4000000, 4]⟩ : Shape).Idx → EReal) :
    (⟨2, ![4000000, 9]⟩ : Shape).Idx → EReal :=
  fun i => covK (scales a0 (i 0)) (unit (quat a1 (i 0))) (i 1)

/-- The result: entry `(n, i, k)` is entry `(i, k)` of row `n`'s covariance. -/
def result (a0 : (⟨2, ![4000000, 3]⟩ : Shape).Idx → EReal) (a1 : (⟨2, ![4000000, 4]⟩ : Shape).Idx → EReal) :
    (⟨3, ![4000000, 3, 3]⟩ : Shape).Idx → EReal :=
  fun i => cov (scales a0 (i 0)) (unit (quat a1 (i 0))) (i 1) (i 2)

theorem flat_ix2 (a0 : (⟨2, ![4000000, 3]⟩ : Shape).Idx → EReal) (a1 : (⟨2, ![4000000, 4]⟩ : Shape).Idx → EReal)
    (n : Fin 4000000) (c : Fin 9) : flat a0 a1 (ix2 n c) = covK (scales a0 n) (unit (quat a1 n)) c := rfl

theorem result_ix3 (a0 : (⟨2, ![4000000, 3]⟩ : Shape).Idx → EReal) (a1 : (⟨2, ![4000000, 4]⟩ : Shape).Idx → EReal)
    (n : Fin 4000000) (i k : Fin 3) : result a0 a1 (ix3 n i k) = cov (scales a0 n) (unit (quat a1 n)) i k := rfl

/-- The flat layout regrouped three by three is the result. -/
theorem result_eq_flat (a0 : (⟨2, ![4000000, 3]⟩ : Shape).Idx → EReal) (a1 : (⟨2, ![4000000, 4]⟩ : Shape).Idx → EReal)
    (n : Fin 4000000) (i k : Fin 3) : flat a0 a1 (ix2 n (c9 i k)) = result a0 a1 (ix3 n i k) := by
  rw [flat_ix2, result_ix3, covK_eq_cov]

end Cert.Cov

end
-- ==== Proof.Lay.lean ====
/-
  Layout operations on a column of `a` rows, read at an index: a column `[a, 1]` cast to a vector `[a]` and
  back, and nine columns laid side by side into an `[a, 9]` array — entry `(i, c)` of the result is row `i` of
  column `c`.
-/
import Idealize.ShloMosaic.Lib.Pipeline.Value
import Idealize.ShloMosaic.Lib.ValueIdx

noncomputable section

namespace Cert.Lay

open Idealize.ShloMosaic Idealize.ShloMosaic.ValueIdx

variable {α : Type}

/-- An `[a, 1]` column cast to `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` vector cast to an `[a, 1]` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- Column `o` of an `[a, n]` array, as an `[a, 1]` column, reads at `(i, u)` the array at `(i, o)`. -/
theorem col_apply {a n : ℕ} (o : ℕ) (x : (⟨2, ![a, n]⟩ : Shape).Idx → α)
    (h : (⟨2, ![a, n]⟩ : Shape).Slices ![0, o] ⟨2, ![a, 1]⟩) (i : Fin a) (u : Fin 1) (k : Fin n) (hk : k.val = o) :
    extractStridedSlice ⟨2, ![a, 1]⟩ ![0, o] x h (ix2 i u) = x (ix2 i k) :=
  extractStridedSlice_apply _ _ _ _ _ (fun ax => by
    match ax with
    | ⟨0, _⟩ => exact (Nat.zero_add _).symm
    | ⟨1, _⟩ => show k.val = o + u.val; omega)

/-- Nine `[a, 1]` columns laid side by side: entry `(i, c)` is row `i` of column `c`. -/
theorem cat9_apply {a : ℕ} (f : Fin 9 → ((⟨2, ![a, 1]⟩ : Shape).Idx → α))
    (h : Shape.Concatenates ([(⟨(⟨2, ![a, 1]⟩ : Shape), f 0⟩ : (s : Shape) × (s.Idx → α)), ⟨⟨2, ![a, 1]⟩, f 1⟩, ⟨⟨2, ![a, 1]⟩, f 2⟩,
      ⟨⟨2, ![a, 1]⟩, f 3⟩, ⟨⟨2, ![a, 1]⟩, f 4⟩, ⟨⟨2, ![a, 1]⟩, f 5⟩, ⟨⟨2, ![a, 1]⟩, f 6⟩, ⟨⟨2, ![a, 1]⟩, f 7⟩, ⟨⟨2, ![a, 1]⟩, f 8⟩].map (·.1))
      ⟨2, ![a, 9]⟩ 1)
    (i : Fin a) (c : Fin 9) :
    concatenate ⟨2, ![a, 9]⟩ 1 [⟨⟨2, ![a, 1]⟩, f 0⟩, ⟨⟨2, ![a, 1]⟩, f 1⟩, ⟨⟨2, ![a, 1]⟩, f 2⟩, ⟨⟨2, ![a, 1]⟩, f 3⟩, ⟨⟨2, ![a, 1]⟩, f 4⟩,
      ⟨⟨2, ![a, 1]⟩, f 5⟩, ⟨⟨2, ![a, 1]⟩, f 6⟩, ⟨⟨2, ![a, 1]⟩, f 7⟩, ⟨⟨2, ![a, 1]⟩, f 8⟩] h (ix2 i c) = f c (ix2 i (0 : Fin 1)) :=
  concatenate_ofFn_unit_apply (t := ⟨2, ![a, 9]⟩) (s₁ := ⟨2, ![a, 1]⟩) (1 : Fin 2) f h rfl rfl (ix2 i c) c rfl (ix2 i 0)
    (fun b hb => by
      match b with
      | ⟨0, _⟩ => rfl
      | ⟨1, _⟩ => exact absurd rfl hb)

/-- The `c`-th of nine things. -/
def sel9 {β : Type} (p0 p1 p2 p3 p4 p5 p6 p7 p8 : β) : Fin 9 → β
  | ⟨0, _⟩ => p0
  | ⟨1, _⟩ => p1
  | ⟨2, _⟩ => p2
  | ⟨3, _⟩ => p3
  | ⟨4, _⟩ => p4
  | ⟨5, _⟩ => p5
  | ⟨6, _⟩ => p6
  | ⟨7, _⟩ => p7
  | ⟨8, _⟩ => p8

theorem sel9_0 {β : Type} (p0 p1 p2 p3 p4 p5 p6 p7 p8 : β) (h : 0 < 9) : sel9 p0 p1 p2 p3 p4 p5 p6 p7 p8 ⟨0, h⟩ = p0 := rfl
theorem sel9_1 {β : Type} (p0 p1 p2 p3 p4 p5 p6 p7 p8 : β) (h : 1 < 9) : sel9 p0 p1 p2 p3 p4 p5 p6 p7 p8 ⟨1, h⟩ = p1 := rfl
theorem sel9_2 {β : Type} (p0 p1 p2 p3 p4 p5 p6 p7 p8 : β) (h : 2 < 9) : sel9 p0 p1 p2 p3 p4 p5 p6 p7 p8 ⟨2, h⟩ = p2 := rfl
theorem sel9_3 {β : Type} (p0 p1 p2 p3 p4 p5 p6 p7 p8 : β) (h : 3 < 9) : sel9 p0 p1 p2 p3 p4 p5 p6 p7 p8 ⟨3, h⟩ = p3 := rfl
theorem sel9_4 {β : Type} (p0 p1 p2 p3 p4 p5 p6 p7 p8 : β) (h : 4 < 9) : sel9 p0 p1 p2 p3 p4 p5 p6 p7 p8 ⟨4, h⟩ = p4 := rfl
theorem sel9_5 {β : Type} (p0 p1 p2 p3 p4 p5 p6 p7 p8 : β) (h : 5 < 9) : sel9 p0 p1 p2 p3 p4 p5 p6 p7 p8 ⟨5, h⟩ = p5 := rfl
theorem sel9_6 {β : Type} (p0 p1 p2 p3 p4 p5 p6 p7 p8 : β) (h : 6 < 9) : sel9 p0 p1 p2 p3 p4 p5 p6 p7 p8 ⟨6, h⟩ = p6 := rfl
theorem sel9_7 {β : Type} (p0 p1 p2 p3 p4 p5 p6 p7 p8 : β) (h : 7 < 9) : sel9 p0 p1 p2 p3 p4 p5 p6 p7 p8 ⟨7, h⟩ = p7 := rfl
theorem sel9_8 {β : Type} (p0 p1 p2 p3 p4 p5 p6 p7 p8 : β) (h : 8 < 9) : sel9 p0 p1 p2 p3 p4 p5 p6 p7 p8 ⟨8, h⟩ = p8 := rfl

/-- Nine named `[a, 1]` columns laid side by side: entry `(i, c)` is row `i` of the `c`-th. -/
theorem cat9_sel {a : ℕ} (p0 p1 p2 p3 p4 p5 p6 p7 p8 : ((⟨2, ![a, 1]⟩ : Shape).Idx → α))
    (h : Shape.Concatenates (([(⟨⟨2, ![a, 1]⟩, p0⟩ : (s : Shape) × (s.Idx → α)), ⟨⟨2, ![a, 1]⟩, p1⟩, ⟨⟨2, ![a, 1]⟩, p2⟩, ⟨⟨2, ![a, 1]⟩, p3⟩, ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩]).map (·.1)) ⟨2, ![a, 9]⟩ 1)
    (i : Fin a) (c : Fin 9) :
    concatenate ⟨2, ![a, 9]⟩ 1 [⟨⟨2, ![a, 1]⟩, p0⟩, ⟨⟨2, ![a, 1]⟩, p1⟩, ⟨⟨2, ![a, 1]⟩, p2⟩, ⟨⟨2, ![a, 1]⟩, p3⟩, ⟨⟨2, ![a, 1]⟩, p4⟩, ⟨⟨2, ![a, 1]⟩, p5⟩, ⟨⟨2, ![a, 1]⟩, p6⟩, ⟨⟨2, ![a, 1]⟩, p7⟩, ⟨⟨2, ![a, 1]⟩, p8⟩] h (ix2 i c) = sel9 p0 p1 p2 p3 p4 p5 p6 p7 p8 c (ix2 i (0 : Fin 1)) :=
  cat9_apply (sel9 p0 p1 p2 p3 p4 p5 p6 p7 p8) h i c

end Cert.Lay

end
-- ==== Proof.KBody.lean ====
/-
  What the kernel's body computes from one block, entry by entry.

  The body loads a block of 8000 rows of log-scales `x0` (three per row) and of quaternions `x1` (four per row) and
  stores an 8000 × 9 block. Row `r` of the stored block depends on row `r` of the two loaded blocks only: with
  `s j = exp (x0 r j)` and `u` the quaternion `x1 r` times the reciprocal of its clamped norm, entry `(r, c)` is
  `Cov.covK s u c` — the nine entries of `(R S)(R S)ᵀ` laid out row-major, the upper triangle copied below the
  diagonal. Every intermediate vector of the body is read at row `r` in turn: the four quaternion columns, the
  reciprocal norm, the unit quaternion, the scales, the nine entries of `R S`, the six distinct dot products, and the
  nine columns laid side by side.
-/
import proofs.«149386_j14929306321119_1_alg».proof.Proof.Gen.KernelIdeal.Skeleton
import proofs.«149386_j14929306321119_1_alg».proof.Proof.Spec
import proofs.«149386_j14929306321119_1_alg».proof.Proof.Lay

noncomputable section

namespace Cert.KernelIdeal.Body

open Cert.KernelIdeal Cert.KernelIdeal.Gen Idealize.ShloMosaic Idealize.ShloMosaic.TcCoe Idealize.ShloMosaic.ValueIdx
open Cert.Lay Cert.Cov

variable (x0 : Vec Ideal S8000x3 .f32) (x1 : Vec Ideal S8000x4 .f32)

/-- Row `r` of the quaternion block. -/
def qrow (r : Fin 8000) : Fin 4 → EReal := fun k => x1 (ix2 r k)
/-- The scales of row `r`: the exponentials of its log-scales. -/
def srow (r : Fin 8000) : Fin 3 → EReal := fun j => Ideal.exp (x0 (ix2 r j))

/-! ## The quaternion's columns, the reciprocal norm, the unit quaternion -/

theorem pay3_at (r : Fin 8000) : k0_pay3 (F := Ideal) x1 (ix1 r) = qrow x1 r 0 := by
  unfold k0_pay3
  refine (shapeCast_a1_a_apply _ _ r).trans ?_
  exact col_apply 0 x1 _ r 0 0 rfl
theorem pay4_at (r : Fin 8000) : k0_pay4 (F := Ideal) x1 (ix1 r) = qrow x1 r 1 := by
  unfold k0_pay4
  refine (shapeCast_a1_a_apply _ _ r).trans ?_
  exact col_apply 1 x1 _ r 0 1 rfl
theorem pay5_at (r : Fin 8000) : k0_pay5 (F := Ideal) x1 (ix1 r) = qrow x1 r 2 := by
  unfold k0_pay5
  refine (shapeCast_a1_a_apply _ _ r).trans ?_
  exact col_apply 2 x1 _ r 0 2 rfl
theorem pay6_at (r : Fin 8000) : k0_pay6 (F := Ideal) x1 (ix1 r) = qrow x1 r 3 := by
  unfold k0_pay6
  refine (shapeCast_a1_a_apply _ _ r).trans ?_
  exact col_apply 3 x1 _ r 0 3 rfl

/-- The reciprocal of the clamped norm of row `r`. -/
theorem pay7_at (r : Fin 8000) : k0_pay7 (F := Ideal) x1 (ix1 r) = Ideal.div one (nrm (qrow x1 r)) := by
  rw [show k0_pay7 (F := Ideal) x1 (ix1 r) = Ideal.div one (max (Ideal.sqrt
      (((k0_pay3 (F := Ideal) x1 (ix1 r) * k0_pay3 (F := Ideal) x1 (ix1 r) + k0_pay4 (F := Ideal) x1 (ix1 r) * k0_pay4 (F := Ideal) x1 (ix1 r))
        + k0_pay5 (F := Ideal) x1 (ix1 r) * k0_pay5 (F := Ideal) x1 (ix1 r)) + k0_pay6 (F := Ideal) x1 (ix1 r) * k0_pay6 (F := Ideal) x1 (ix1 r))) eps) from rfl,
    pay3_at, pay4_at, pay5_at, pay6_at]
  rfl

theorem pay8_at (r : Fin 8000) : k0_pay8 (F := Ideal) x1 (ix1 r) = unit (qrow x1 r) 0 := by
  rw [show k0_pay8 (F := Ideal) x1 (ix1 r) = k0_pay3 (F := Ideal) x1 (ix1 r) * k0_pay7 (F := Ideal) x1 (ix1 r) from rfl, pay3_at, pay7_at]; rfl
theorem pay9_at (r : Fin 8000) : k0_pay9 (F := Ideal) x1 (ix1 r) = unit (qrow x1 r) 1 := by
  rw [show k0_pay9 (F := Ideal) x1 (ix1 r) = k0_pay4 (F := Ideal) x1 (ix1 r) * k0_pay7 (F := Ideal) x1 (ix1 r) from rfl, pay4_at, pay7_at]; rfl
theorem pay10_at (r : Fin 8000) : k0_pay10 (F := Ideal) x1 (ix1 r) = unit (qrow x1 r) 2 := by
  rw [show k0_pay10 (F := Ideal) x1 (ix1 r) = k0_pay5 (F := Ideal) x1 (ix1 r) * k0_pay7 (F := Ideal) x1 (ix1 r) from rfl, pay5_at, pay7_at]; rfl
theorem pay11_at (r : Fin 8000) : k0_pay11 (F := Ideal) x1 (ix1 r) = unit (qrow x1 r) 3 := by
  rw [show k0_pay11 (F := Ideal) x1 (ix1 r) = k0_pay6 (F := Ideal) x1 (ix1 r) * k0_pay7 (F := Ideal) x1 (ix1 r) from rfl, pay6_at, pay7_at]; rfl

/-! ## The scales -/

theorem pay12_at (r : Fin 8000) : k0_pay12 (F := Ideal) x0 (ix1 r) = srow x0 r 0 := by
  unfold k0_pay12
  refine (shapeCast_a1_a_apply _ _ r).trans ?_
  exact col_apply 0 (k0_pay2 (F := Ideal) x0) _ r 0 0 rfl
theorem pay13_at (r : Fin 8000) : k0_pay13 (F := Ideal) x0 (ix1 r) = srow x0 r 1 := by
  unfold k0_pay13
  refine (shapeCast_a1_a_apply _ _ r).trans ?_
  exact col_apply 1 (k0_pay2 (F := Ideal) x0) _ r 0 1 rfl
theorem pay14_at (r : Fin 8000) : k0_pay14 (F := Ideal) x0 (ix1 r) = srow x0 r 2 := by
  unfold k0_pay14
  refine (shapeCast_a1_a_apply _ _ r).trans ?_
  exact col_apply 2 (k0_pay2 (F := Ideal) x0) _ r 0 2 rfl

/-! ## The rotation's entries scaled column by column

`u` is the unit quaternion of row `r`, `s` its scales. -/

theorem pay15_at (r : Fin 8000) : k0_pay15 (F := Ideal) x1 (ix1 r) = rot (unit (qrow x1 r)) 0 := by
  rw [show k0_pay15 (F := Ideal) x1 (ix1 r) = one - two * (k0_pay10 (F := Ideal) x1 (ix1 r) * k0_pay10 (F := Ideal) x1 (ix1 r)
      + k0_pay11 (F := Ideal) x1 (ix1 r) * k0_pay11 (F := Ideal) x1 (ix1 r)) from rfl, pay10_at, pay11_at]; rfl
theorem pay16_at (r : Fin 8000) : k0_pay16 (F := Ideal) x1 (ix1 r) = rot (unit (qrow x1 r)) 1 := by
  rw [show k0_pay16 (F := Ideal) x1 (ix1 r) = two * (k0_pay9 (F := Ideal) x1 (ix1 r) * k0_pay10 (F := Ideal) x1 (ix1 r)
      - k0_pay8 (F := Ideal) x1 (ix1 r) * k0_pay11 (F := Ideal) x1 (ix1 r)) from rfl, pay8_at, pay9_at, pay10_at, pay11_at]; rfl
theorem pay17_at (r : Fin 8000) : k0_pay17 (F := Ideal) x1 (ix1 r)
    = unit (qrow x1 r) 1 * unit (qrow x1 r) 3 + unit (qrow x1 r) 0 * unit (qrow x1 r) 2 := by
  rw [show k0_pay17 (F := Ideal) x1 (ix1 r) = k0_pay9 (F := Ideal) x1 (ix1 r) * k0_pay11 (F := Ideal) x1 (ix1 r)
      + k0_pay8 (F := Ideal) x1 (ix1 r) * k0_pay10 (F := Ideal) x1 (ix1 r) from rfl, pay8_at, pay9_at, pay10_at, pay11_at]

/-- Row 0 of `R S`. -/
def rs00 : FVec Ideal S8000 .f32 := k0_pay19 (k0_pay12 x0) (k0_pay15 x1)
def rs01 : FVec Ideal S8000 .f32 := k0_pay20 (k0_pay13 x0) (k0_pay16 x1)
def rs02 : FVec Ideal S8000 .f32 := k0_pay21 (k0_pay14 x0) (k0_pay17 x1) (k0_pay18 (F := Ideal))
/-- Row 1. -/
def rs10 : FVec Ideal S8000 .f32 := k0_pay22 (k0_pay8 x1) (k0_pay9 x1) (k0_pay10 x1) (k0_pay11 x1) (k0_pay12 x0)
def rs11 : FVec Ideal S8000 .f32 := k0_pay23 (k0_pay9 x1) (k0_pay11 x1) (k0_pay13 x0)
def rs12 : FVec Ideal S8000 .f32 := k0_pay24 (k0_pay8 x1) (k0_pay9 x1) (k0_pay10 x1) (k0_pay11 x1) (k0_pay14 x0)
/-- Row 2. -/
def rs20 : FVec Ideal S8000 .f32 := k0_pay25 (k0_pay8 x1) (k0_pay9 x1) (k0_pay10 x1) (k0_pay11 x1) (k0_pay12 x0)
def rs21 : FVec Ideal S8000 .f32 := k0_pay26 (k0_pay8 x1) (k0_pay9 x1) (k0_pay10 x1) (k0_pay11 x1) (k0_pay13 x0)
def rs22 : FVec Ideal S8000 .f32 := k0_pay27 (k0_pay9 x1) (k0_pay10 x1) (k0_pay14 x0)

theorem rs00_at (r : Fin 8000) : rs00 x0 x1 (ix1 r) = rs (srow x0 r) (unit (qrow x1 r)) 0 0 := by
  rw [show rs00 x0 x1 (ix1 r) = k0_pay15 (F := Ideal) x1 (ix1 r) * k0_pay12 (F := Ideal) x0 (ix1 r) from rfl, pay15_at, pay12_at]; rfl
theorem rs01_at (r : Fin 8000) : rs01 x0 x1 (ix1 r) = rs (srow x0 r) (unit (qrow x1 r)) 0 1 := by
  rw [show rs01 x0 x1 (ix1 r) = k0_pay16 (F := Ideal) x1 (ix1 r) * k0_pay13 (F := Ideal) x0 (ix1 r) from rfl, pay16_at, pay13_at]; rfl
theorem rs02_at (r : Fin 8000) : rs02 x0 x1 (ix1 r) = rs (srow x0 r) (unit (qrow x1 r)) 0 2 := by
  rw [show rs02 x0 x1 (ix1 r) = (two * k0_pay17 (F := Ideal) x1 (ix1 r)) * k0_pay14 (F := Ideal) x0 (ix1 r) from rfl, pay17_at, pay14_at]; rfl
theorem rs10_at (r : Fin 8000) : rs10 x0 x1 (ix1 r) = rs (srow x0 r) (unit (qrow x1 r)) 1 0 := by
  rw [show rs10 x0 x1 (ix1 r) = (two * (k0_pay9 (F := Ideal) x1 (ix1 r) * k0_pay10 (F := Ideal) x1 (ix1 r)
      + k0_pay8 (F := Ideal) x1 (ix1 r) * k0_pay11 (F := Ideal) x1 (ix1 r))) * k0_pay12 (F := Ideal) x0 (ix1 r) from rfl,
    pay8_at, pay9_at, pay10_at, pay11_at, pay12_at]; rfl
theorem rs11_at (r : Fin 8000) : rs11 x0 x1 (ix1 r) = rs (srow x0 r) (unit (qrow x1 r)) 1 1 := by
  rw [show rs11 x0 x1 (ix1 r) = (one - two * (k0_pay9 (F := Ideal) x1 (ix1 r) * k0_pay9 (F := Ideal) x1 (ix1 r)
      + k0_pay11 (F := Ideal) x1 (ix1 r) * k0_pay11 (F := Ideal) x1 (ix1 r))) * k0_pay13 (F := Ideal) x0 (ix1 r) from rfl,
    pay9_at, pay11_at, pay13_at]; rfl
theorem rs12_at (r : Fin 8000) : rs12 x0 x1 (ix1 r) = rs (srow x0 r) (unit (qrow x1 r)) 1 2 := by
  rw [show rs12 x0 x1 (ix1 r) = (two * (k0_pay10 (F := Ideal) x1 (ix1 r) * k0_pay11 (F := Ideal) x1 (ix1 r)
      - k0_pay8 (F := Ideal) x1 (ix1 r) * k0_pay9 (F := Ideal) x1 (ix1 r))) * k0_pay14 (F := Ideal) x0 (ix1 r) from rfl,
    pay8_at, pay9_at, pay10_at, pay11_at, pay14_at]; rfl
theorem rs20_at (r : Fin 8000) : rs20 x0 x1 (ix1 r) = rs (srow x0 r) (unit (qrow x1 r)) 2 0 := by
  rw [show rs20 x0 x1 (ix1 r) = (two * (k0_pay9 (F := Ideal) x1 (ix1 r) * k0_pay11 (F := Ideal) x1 (ix1 r)
      - k0_pay8 (F := Ideal) x1 (ix1 r) * k0_pay10 (F := Ideal) x1 (ix1 r))) * k0_pay12 (F := Ideal) x0 (ix1 r) from rfl,
    pay8_at, pay9_at, pay10_at, pay11_at, pay12_at]; rfl
theorem rs21_at (r : Fin 8000) : rs21 x0 x1 (ix1 r) = rs (srow x0 r) (unit (qrow x1 r)) 2 1 := by
  rw [show rs21 x0 x1 (ix1 r) = (two * (k0_pay10 (F := Ideal) x1 (ix1 r) * k0_pay11 (F := Ideal) x1 (ix1 r)
      + k0_pay8 (F := Ideal) x1 (ix1 r) * k0_pay9 (F := Ideal) x1 (ix1 r))) * k0_pay13 (F := Ideal) x0 (ix1 r) from rfl,
    pay8_at, pay9_at, pay10_at, pay11_at, pay13_at]; rfl
theorem rs22_at (r : Fin 8000) : rs22 x0 x1 (ix1 r) = rs (srow x0 r) (unit (qrow x1 r)) 2 2 := by
  rw [show rs22 x0 x1 (ix1 r) = (one - two * (k0_pay9 (F := Ideal) x1 (ix1 r) * k0_pay9 (F := Ideal) x1 (ix1 r)
      + k0_pay10 (F := Ideal) x1 (ix1 r) * k0_pay10 (F := Ideal) x1 (ix1 r))) * k0_pay14 (F := Ideal) x0 (ix1 r) from rfl,
    pay9_at, pay10_at, pay14_at]; rfl

/-! ## The stored block -/

/-- The value the body stores: the nine columns side by side. -/
def body : FVec Ideal S8000x9 .f32 :=
  k0_pay1 (rs00 x0 x1) (rs01 x0 x1) (rs02 x0 x1) (rs10 x0 x1) (rs11 x0 x1) (rs12 x0 x1) (rs20 x0 x1) (rs21 x0 x1) (rs22 x0 x1)
    (k0_pay28 (k0_pay12 x0) (k0_pay13 x0) (k0_pay14 x0) (k0_pay15 x1) (k0_pay16 x1) (k0_pay17 x1) (k0_pay18 (F := Ideal)))
    (k0_pay29 (k0_pay8 x1) (k0_pay9 x1) (k0_pay10 x1) (k0_pay11 x1) (k0_pay12 x0) (k0_pay13 x0) (k0_pay15 x1) (k0_pay16 x1))

/-- The dot product of two rows of `R S` given as vectors over the block's rows, added left to right. -/
def dotv (a0 a1 a2 b0 b1 b2 : FVec Ideal S8000 .f32) : FVec Ideal S8000 .f32 :=
  addf (addf (mulf a0 b0) (mulf a1 b1)) (mulf a2 b2)

/-- The nine columns of the stored block, as vectors over its rows. -/
def cols (v84 v85 v86 v87 v88 v89 v90 v91 v92 v97 v100 : FVec Ideal S8000 .f32) : Fin 9 → FVec Ideal S8000 .f32 :=
  ![v97, addf v100 (mulf v86 v89), dotv v84 v85 v86 v90 v91 v92, addf v100 (mulf v86 v89), dotv v87 v88 v89 v87 v88 v89,
    dotv v87 v88 v89 v90 v91 v92, dotv v84 v85 v86 v90 v91 v92, dotv v87 v88 v89 v90 v91 v92, dotv v90 v91 v92 v90 v91 v92]

/-- Entry `(r, c)` of the nine columns laid side by side is row `r` of column `c`. -/
theorem pay1_at (v84 v85 v86 v87 v88 v89 v90 v91 v92 v97 v100 : FVec Ideal S8000 .f32) (r : Fin 8000) (c : Fin 9) :
    k0_pay1 (F := Ideal) v84 v85 v86 v87 v88 v89 v90 v91 v92 v97 v100 (ix2 r c)
      = cols v84 v85 v86 v87 v88 v89 v90 v91 v92 v97 v100 c (ix1 r) := by
  unfold k0_pay1
  refine (cat9_apply (a := 8000) (fun c => shapeCast S8000x1 (cols v84 v85 v86 v87 v88 v89 v90 v91 v92 v97 v100 c) shapeCasts_S8000_S8000x1) _ r c).trans ?_
  exact shapeCast_a_a1_apply _ _ r 0

/-- Entry `(r, c)` of the stored block. -/
theorem body_at (r : Fin 8000) (c : Fin 9) : body x0 x1 (ix2 r c) = covK (srow x0 r) (unit (qrow x1 r)) c := by
  unfold body
  rw [pay1_at]
  have e00 := rs00_at x0 x1 r
  have e01 := rs01_at x0 x1 r
  have e02 := rs02_at x0 x1 r
  have e10 := rs10_at x0 x1 r
  have e11 := rs11_at x0 x1 r
  have e12 := rs12_at x0 x1 r
  have e20 := rs20_at x0 x1 r
  have e21 := rs21_at x0 x1 r
  have e22 := rs22_at x0 x1 r
  have d01 : (k0_pay29 (F := Ideal) (k0_pay8 x1) (k0_pay9 x1) (k0_pay10 x1) (k0_pay11 x1) (k0_pay12 x0) (k0_pay13 x0) (k0_pay15 x1) (k0_pay16 x1)) (ix1 r)
      + rs02 x0 x1 (ix1 r) * rs12 x0 x1 (ix1 r) = dot3 (srow x0 r) (unit (qrow x1 r)) 0 1 := by
    rw [show (k0_pay29 (F := Ideal) (k0_pay8 x1) (k0_pay9 x1) (k0_pay10 x1) (k0_pay11 x1) (k0_pay12 x0) (k0_pay13 x0) (k0_pay15 x1) (k0_pay16 x1)) (ix1 r)
      = rs00 x0 x1 (ix1 r) * rs10 x0 x1 (ix1 r) + rs01 x0 x1 (ix1 r) * rs11 x0 x1 (ix1 r) from rfl, e00, e01, e02, e10, e11, e12]; rfl
  have d02 : (rs00 x0 x1 (ix1 r) * rs20 x0 x1 (ix1 r) + rs01 x0 x1 (ix1 r) * rs21 x0 x1 (ix1 r)) + rs02 x0 x1 (ix1 r) * rs22 x0 x1 (ix1 r)
      = dot3 (srow x0 r) (unit (qrow x1 r)) 0 2 := by rw [e00, e01, e02, e20, e21, e22]; rfl
  have d12 : (rs10 x0 x1 (ix1 r) * rs20 x0 x1 (ix1 r) + rs11 x0 x1 (ix1 r) * rs21 x0 x1 (ix1 r)) + rs12 x0 x1 (ix1 r) * rs22 x0 x1 (ix1 r)
      = dot3 (srow x0 r) (unit (qrow x1 r)) 1 2 := by rw [e10, e11, e12, e20, e21, e22]; rfl
  match c with
  | ⟨0, _⟩ =>
    show (rs00 x0 x1 (ix1 r) * rs00 x0 x1 (ix1 r) + rs01 x0 x1 (ix1 r) * rs01 x0 x1 (ix1 r)) + rs02 x0 x1 (ix1 r) * rs02 x0 x1 (ix1 r) = _
    rw [e00, e01, e02]; rfl
  | ⟨1, _⟩ => exact d01
  | ⟨2, _⟩ => exact d02
  | ⟨3, _⟩ => exact d01
  | ⟨4, _⟩ =>
    show (rs10 x0 x1 (ix1 r) * rs10 x0 x1 (ix1 r) + rs11 x0 x1 (ix1 r) * rs11 x0 x1 (ix1 r)) + rs12 x0 x1 (ix1 r) * rs12 x0 x1 (ix1 r) = _
    rw [e10, e11, e12]; rfl
  | ⟨5, _⟩ => exact d12
  | ⟨6, _⟩ => exact d02
  | ⟨7, _⟩ => exact d12
  | ⟨8, _⟩ =>
    show (rs20 x0 x1 (ix1 r) * rs20 x0 x1 (ix1 r) + rs21 x0 x1 (ix1 r) * rs21 x0 x1 (ix1 r)) + rs22 x0 x1 (ix1 r) * rs22 x0 x1 (ix1 r) = _
    rw [e20, e21, e22]; rfl

end Cert.KernelIdeal.Body

end
-- ==== Proof.KValue.lean ====
/-
  The kernel's result, entry by entry.

  The grid has 500 points; point `t` stages rows `8000 t … 8000 t + 7999` of the two argument arrays and writes rows
  `8000 t … 8000 t + 7999` of the 4000000 × 9 result back. What it writes is the body's value of the two staged blocks
  (`Body.body_at`), and row `r` of a staged block is row `8000 t + r` of its array, so the block written back is the
  block of ONE function of the whole arrays: `Cov.flat`. The 500 blocks tile the result (row `i` lies in the block of
  point `i / 8000`), so after the run the array IS `Cov.flat` of the arguments. The host then regroups each row's nine
  entries three by three: entry `(n, i, k)` of the returned array is entry `(n, 3 i + k)` of the flat one, which is
  `Cov.result`.
-/
import proofs.«149386_j14929306321119_1_alg».proof.Proof.Gen.KernelIdeal.Frame
import proofs.«149386_j14929306321119_1_alg».proof.Proof.KBody
import Idealize.ShloMosaic.Lib.Pipeline.Value
import Idealize.ShloMosaic.Lib.StableHlo.Run

noncomputable section

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)
open Cert.Cov Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The one store of the body covers its buffer from offset zero: the buffer holds the stored value. -/
theorem out_eq (x0 : Vec Ideal S8000x3 .f32) (x1 : Vec Ideal S8000x4 .f32) : out0_2 (F := Ideal) x0 x1 = body x0 x1 := by
  unfold out0_2
  rw [View.canon_unit_zero hz]
  simp only [View.ld_unit_zero (S := S8000x3) hz, View.ld_unit_zero (S := S8000x4) hz]
  rfl

/-- The stored block at any index, by its two coordinates. -/
theorem body_apply (x0 : Vec Ideal S8000x3 .f32) (x1 : Vec Ideal S8000x4 .f32) (i : S8000x9.Idx) :
    body x0 x1 i = covK (srow x0 (i 0)) (unit (qrow x1 (i 0))) (i 1) :=
  (congrArg (body x0 x1) (eq_ix2 i)).trans (body_at x0 x1 (i 0) (i 1))

/-- The three index maps, decided over the grid: each window's block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem t_lt (t : Fin cfg0.N) : t.val < 500 := lt_of_lt_of_eq t.isLt (N_0 : cfg0.N = 500)

/-- Row `r` of the block of log-scales staged at point `t` is row `8000 t + r` of the array. -/
theorem iblk0_apply (c : Dev nD) (t : Fin cfg0.N) (x : S8000x3.Idx) (k : S4000000x3.Idx)
    (hk0 : (k 0).val = t.val * 8000 + (x 0).val) (hk1 : (k 1).val = (x 1).val) :
    (iblk m c 0 t : Vec Ideal S8000x3 .f32) x = (V m c main_arg0 : S4000000x3.Idx → Elt Ideal .f32) k := by
  obtain ⟨h00, h01, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 8000 + 1 * (x 0).val = (k 0).val; rw [h00, hk0]; omega
  | ⟨1, _⟩ => show win0_0.index t (1 : Fin 2) * 3 + 1 * (x 1).val = (k 1).val; rw [h01, hk1]; omega

/-- Row `r` of the block of quaternions staged at point `t` is row `8000 t + r` of the array. -/
theorem iblk1_apply (c : Dev nD) (t : Fin cfg0.N) (x : S8000x4.Idx) (k : S4000000x4.Idx)
    (hk0 : (k 0).val = t.val * 8000 + (x 0).val) (hk1 : (k 1).val = (x 1).val) :
    (iblk m c 1 t : Vec Ideal S8000x4 .f32) x = (V m c main_arg1 : S4000000x4.Idx → Elt Ideal .f32) k := by
  obtain ⟨-, -, h10, h11, -⟩ := idx_facts t
  unfold iblk
  rw [View.read_apply]
  show V m c main_arg1 _ = V m c main_arg1 _
  refine congrArg (V m c main_arg1) (funext fun a => Fin.ext ?_)
  match a with
  | ⟨0, _⟩ => show win0_1.index t (0 : Fin 2) * 8000 + 1 * (x 0).val = (k 0).val; rw [h10, hk0]; omega
  | ⟨1, _⟩ => show win0_1.index t (1 : Fin 2) * 4 + 1 * (x 1).val = (k 1).val; rw [h11, hk1]; omega

/-- The row of the arrays that row `r` of point `t`'s blocks is. -/
def grow (t : Fin cfg0.N) (r : Fin 8000) : Fin 4000000 := ⟨t.val * 8000 + r.val, by have := t_lt t; have := r.isLt; omega⟩

theorem srow_iblk (c : Dev nD) (t : Fin cfg0.N) (r : Fin 8000) :
    srow (iblk m c 0 t : Vec Ideal S8000x3 .f32) r = scales (V m c main_arg0 : S4000000x3.Idx → Elt Ideal .f32) (grow t r) := by
  funext j
  show Ideal.exp ((iblk m c 0 t : Vec Ideal S8000x3 .f32) (ix2 r j)) = Ideal.exp ((V m c main_arg0 : S4000000x3.Idx → Elt Ideal .f32) (ix2 (grow t r) j))
  rw [iblk0_apply m c t (ix2 r j) (ix2 (grow t r) j) rfl rfl]

theorem qrow_iblk (c : Dev nD) (t : Fin cfg0.N) (r : Fin 8000) :
    qrow (iblk m c 1 t : Vec Ideal S8000x4 .f32) r = quat (V m c main_arg1 : S4000000x4.Idx → Elt Ideal .f32) (grow t r) := by
  funext k
  show (iblk m c 1 t : Vec Ideal S8000x4 .f32) (ix2 r k) = (V m c main_arg1 : S4000000x4.Idx → Elt Ideal .f32) (ix2 (grow t r) k)
  rw [iblk1_apply m c t (ix2 r k) (ix2 (grow t r) k) rfl rfl]

/-- WHAT POINT `t` WRITES BACK is block `t` of `Cov.flat` of the argument arrays as the region finds them. -/
theorem flushed_eq (c : Dev nD) (t : Fin cfg0.N) :
    (dats m 0 c).flushed 2 t = ((cfg0.win 2).blk t).view.read (Elt Ideal)
      (flat (V m c main_arg0 : S4000000x3.Idx → Elt Ideal .f32) (V m c main_arg1 : S4000000x4.Idx → Elt Ideal .f32)) := by
  show (cfg0.win 2).cut (grid0.coords t) ((dats m 0 c).after 2 t) = _
  rw [after0_2, out_eq]
  obtain ⟨-, -, -, -, h20, h21⟩ := idx_facts t
  funext j
  have hj0 : (j 0).val < 8000 := (j 0).isLt
  have hj1 : (j 1).val < 9 := (j 1).isLt
  show body (iblk m c 0 t : Vec Ideal S8000x3 .f32) (iblk m c 1 t : Vec Ideal S8000x4 .f32) j
    = flat (V m c main_arg0 : S4000000x3.Idx → Elt Ideal .f32) (V m c main_arg1 : S4000000x4.Idx → Elt Ideal .f32) (((cfg0.win 2).blk t).view.emb j)
  have he : ((cfg0.win 2).blk t).view.emb j = ix2 (grow t ⟨(j 0).val, hj0⟩) (⟨(j 1).val, hj1⟩ : Fin 9) := by
    funext a; apply Fin.ext
    match a with
    | ⟨0, _⟩ => show win0_2.index t (0 : Fin 2) * 8000 + 1 * (j 0).val = t.val * 8000 + (j 0).val; rw [h20]; omega
    | ⟨1, _⟩ => show win0_2.index t (1 : Fin 2) * 9 + 1 * (j 1).val = (j 1).val; rw [h21]; omega
  have ej : (j : S8000x9.Idx) = ix2 (⟨(j 0).val, hj0⟩ : Fin 8000) (⟨(j 1).val, hj1⟩ : Fin 9) :=
    funext fun a => by match a with | ⟨0, _⟩ => rfl | ⟨1, _⟩ => rfl
  rw [he, flat_ix2]
  refine (congrArg (body (iblk m c 0 t : Vec Ideal S8000x3 .f32) (iblk m c 1 t : Vec Ideal S8000x4 .f32)) ej).trans ?_
  rw [body_at, srow_iblk, qrow_iblk]

/-- An index of the result is in point `t`'s block iff each coordinate is in the block's range on its axis. -/
theorem mem_blk (t : Fin cfg0.N) (i : S4000000x9.Idx) :
    i ∈ ((cfg0.win 2).blk t).view.set ↔ ∀ a : Fin 2, win0_2.index t a * S8000x9.size a ≤ (i a).val ∧ (i a).val < win0_2.index t a * S8000x9.size a + S8000x9.size a := by
  show i ∈ ((View.whole main_v0).slice (win0_2.rect t)).set ↔ _
  rw [View.set_slice_whole, Rect.mem_set_unit]
  exact Iff.rfl

/-- Row `i` lies in the block of point `i / 8000`. -/
theorem cover (i : S4000000x9.Idx) : ∃ t : Fin cfg0.N, (cfg0.win 2).flush t = true ∧ i ∈ ((cfg0.win 2).blk t).view.set := by
  have hi0 : (i 0).val < 4000000 := (i 0).isLt
  have hi1 : (i 1).val < 9 := (i 1).isLt
  let t : Fin cfg0.N := ⟨(i 0).val / 8000, by rw [show cfg0.N = 500 from N_0]; omega⟩
  obtain ⟨-, -, -, -, h20, h21⟩ := idx_facts t
  have ht : t.val = (i 0).val / 8000 := rfl
  refine ⟨t, flush0_2 t, ?_⟩
  rw [mem_blk]
  intro a
  match a with
  | ⟨0, _⟩ => show win0_2.index t (0 : Fin 2) * 8000 ≤ (i 0).val ∧ (i 0).val < win0_2.index t (0 : Fin 2) * 8000 + 8000; rw [h20, ht]; omega
  | ⟨1, _⟩ => show win0_2.index t (1 : Fin 2) * 9 ≤ (i 1).val ∧ (i 1).val < win0_2.index t (1 : Fin 2) * 9 + 9; rw [h21]; omega

/-- THE ARRAY after the region: `Cov.flat` of the argument arrays. -/
theorem final (c : Dev nD) : (dats m 0 c).arrAt 2 cfg0.N
    = flat (V m c main_arg0 : S4000000x3.Idx → Elt Ideal .f32) (V m c main_arg1 : S4000000x4.Idx → Elt Ideal .f32) :=
  (dats m 0 c).arrAt_eq_of_cover 2 _ (fun t _ => flushed_eq m c t) cover

/-- The returned array: the flat one regrouped three by three. -/
theorem tail_eq (c : Dev nD) : Pipeline.afterTail₀ cfgs (dats m) 0 (V0 m) [hostOps1] c main_v1
    = result (m ((c.tc : Thread nD τ).loc main_arg0)) (m ((c.tc : Thread nD τ).loc main_arg1)) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = flat (V m c main_arg0 : S4000000x3.Idx → Elt Ideal .f32) (V m c main_arg1 : S4000000x4.Idx → Elt Ideal .f32) :=
    (Pipeline.withArrays_arr spec0 launch0.win.arr_inj c _ _ 2).trans (final m c)
  rw [e]
  funext i
  obtain ⟨n, p, q, rfl⟩ : ∃ (n : Fin 4000000) (p q : Fin 3), i = ix3 n p q := ⟨i 0, i 1, i 2, eq_ix3 i⟩
  have hp := p.isLt
  have hq := q.isLt
  show shapeCast S4000000x3x3 (flat (V m c main_arg0 : S4000000x3.Idx → Elt Ideal .f32) (V m c main_arg1 : S4000000x4.Idx → Elt Ideal .f32))
    shapeCasts_S4000000x9_S4000000x3x3 (ix3 n p q) = _
  refine (shapeCast_apply _ shapeCasts_S4000000x9_S4000000x3x3 (ix3 n p q) (ix2 n (c9 p q)) ?_).trans ?_
  · rw [Shape.rowMajor_val_two, Shape.rowMajor_val_three]
    show n.val * 9 + (p.val * 3 + q.val) = (n.val * 3 + p.val) * 3 + q.val
    omega
  · rw [V_main_arg0, V_main_arg1]
    exact result_eq_flat _ _ n p q

/-- The run, read: the returned array at `Cov.result` of the arguments, the arguments unchanged. -/
theorem run : θ_run defs (onTc (τ := τ) (main (F := Ideal))) ⟨m, fun _ => 0, ρ⟩ fun r => ∀ c : Dev nD,
      r.2.mem ((c.tc : Thread nD τ).loc main_v1) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).2 main_v1 (Pipeline.mem_restRefs_of main_v1 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KValue

end
-- ==== Proof.RefValue.lean ====
/-
  The reference's result, entry by entry.

  The reference divides each quaternion by its norm — the square root of the sum from zero of its four squares —
  clamped from below at the threshold, builds the nine rotation entries from the four unit components, lays them
  side by side and regroups them three by three, scales column `j` by the exponential of the row's `j`-th log-scale,
  and contracts the scaled matrix with itself over the column index. Entry `(n, i, k)` is therefore
  `Cov.cov s u i k` with `s` row `n`'s scales and `u` its unit quaternion: the quotient by the clamped norm is the
  product with its reciprocal because the clamped norm is not zero (`Cov.div_eq_unit`).
-/
import proofs.«149386_j14929306321119_1_alg».proof.Proof.Gen.ReferenceIdeal.Read
import proofs.«149386_j14929306321119_1_alg».proof.Proof.Spec
import proofs.«149386_j14929306321119_1_alg».proof.Proof.Lay

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.Lay Cert.Cov

variable (x0 : (⟨S4000000x3, .f32⟩ : BufTy).Contents (Elt Ideal)) (x1 : (⟨S4000000x4, .f32⟩ : BufTy).Contents (Elt Ideal))

/-! ## The unit quaternion -/

/-- Component `k` of row `n` divided by the row's clamped norm. -/
theorem v4_at (n : Fin 4000000) (k : Fin 4) : val_main_v4 (F := Ideal) x1 (ix2 n k) = unit (quat x1 n) k := by
  rw [val_main_v4_apply, val_main_v3_apply, val_main_v2_apply, val_main_call1_v1_apply, val_main_call1_v0_apply, val_main_cst_apply,
    val_main_v1_apply, val_main_call0_v2_apply, val_main_call0_v1_apply, val_main_call0_cst_apply]
  simp only [val_main_call0_v0_apply]
  have e : ∀ j : Fin 4, idx_main_call0_v1 (idx_main_call0_v2 (idx_main_v3 (ix2 n k))) j = ix2 n j := fun j =>
    funext fun a => Fin.ext (by match a with | ⟨0, _⟩ => rfl | ⟨1, _⟩ => rfl)
  simp only [e]
  exact div_eq_unit (quat x1 n) k

theorem v6_at (n : Fin 4000000) : val_main_v6 (F := Ideal) x1 (ix1 n) = unit (quat x1 n) 0 := by
  rw [val_main_v6_apply, val_main_v5_apply, show idx_main_v5 (idx_main_v6 (ix1 n)) = ix2 n (0 : Fin 4) from
    funext fun a => Fin.ext (by match a with | ⟨0, _⟩ => exact Nat.div_one _ | ⟨1, _⟩ => rfl)]
  exact v4_at x1 n 0
theorem v8_at (n : Fin 4000000) : val_main_v8 (F := Ideal) x1 (ix1 n) = unit (quat x1 n) 1 := by
  rw [val_main_v8_apply, val_main_v7_apply, show idx_main_v7 (idx_main_v8 (ix1 n)) = ix2 n (1 : Fin 4) from
    funext fun a => Fin.ext (by match a with | ⟨0, _⟩ => exact Nat.div_one _ | ⟨1, _⟩ => rfl)]
  exact v4_at x1 n 1
theorem v10_at (n : Fin 4000000) : val_main_v10 (F := Ideal) x1 (ix1 n) = unit (quat x1 n) 2 := by
  rw [val_main_v10_apply, val_main_v9_apply, show idx_main_v9 (idx_main_v10 (ix1 n)) = ix2 n (2 : Fin 4) from
    funext fun a => Fin.ext (by match a with | ⟨0, _⟩ => exact Nat.div_one _ | ⟨1, _⟩ => rfl)]
  exact v4_at x1 n 2
theorem v12_at (n : Fin 4000000) : val_main_v12 (F := Ideal) x1 (ix1 n) = unit (quat x1 n) 3 := by
  rw [val_main_v12_apply, val_main_v11_apply, show idx_main_v11 (idx_main_v12 (ix1 n)) = ix2 n (3 : Fin 4) from
    funext fun a => Fin.ext (by match a with | ⟨0, _⟩ => exact Nat.div_one _ | ⟨1, _⟩ => rfl)]
  exact v4_at x1 n 3

/-! ## The nine rotation entries -/

theorem v19_at (n : Fin 4000000) : val_main_v19 (F := Ideal) x1 (ix1 n) = rot (unit (quat x1 n)) 0 := by
  rw [val_main_v19_apply, val_main_v18_apply, val_main_cst_1_apply, val_main_v17_apply, val_main_v16_apply, val_main_cst_0_apply, val_main_v15_apply, val_main_v13_apply, val_main_v14_apply,
    v10_at, v12_at]
  rfl
theorem v24_at (n : Fin 4000000) : val_main_v24 (F := Ideal) x1 (ix1 n) = rot (unit (quat x1 n)) 1 := by
  rw [val_main_v24_apply, val_main_v23_apply, val_main_cst_2_apply, val_main_v22_apply, val_main_v20_apply, val_main_v21_apply,
    v6_at, v8_at, v10_at, v12_at]
  rfl
theorem v29_at (n : Fin 4000000) : val_main_v29 (F := Ideal) x1 (ix1 n) = rot (unit (quat x1 n)) 2 := by
  rw [val_main_v29_apply, val_main_v28_apply, val_main_cst_3_apply, val_main_v27_apply, val_main_v25_apply, val_main_v26_apply,
    v6_at, v8_at, v10_at, v12_at]
  rfl
theorem v34_at (n : Fin 4000000) : val_main_v34 (F := Ideal) x1 (ix1 n) = rot (unit (quat x1 n)) 3 := by
  rw [val_main_v34_apply, val_main_v33_apply, val_main_cst_4_apply, val_main_v32_apply, val_main_v30_apply, val_main_v31_apply,
    v6_at, v8_at, v10_at, v12_at]
  rfl
theorem v41_at (n : Fin 4000000) : val_main_v41 (F := Ideal) x1 (ix1 n) = rot (unit (quat x1 n)) 4 := by
  rw [val_main_v41_apply, val_main_v40_apply, val_main_cst_6_apply, val_main_v39_apply, val_main_v38_apply, val_main_cst_5_apply, val_main_v37_apply, val_main_v35_apply, val_main_v36_apply,
    v8_at, v12_at]
  rfl
theorem v46_at (n : Fin 4000000) : val_main_v46 (F := Ideal) x1 (ix1 n) = rot (unit (quat x1 n)) 5 := by
  rw [val_main_v46_apply, val_main_v45_apply, val_main_cst_7_apply, val_main_v44_apply, val_main_v42_apply, val_main_v43_apply,
    v6_at, v8_at, v10_at, v12_at]
  rfl
theorem v51_at (n : Fin 4000000) : val_main_v51 (F := Ideal) x1 (ix1 n) = rot (unit (quat x1 n)) 6 := by
  rw [val_main_v51_apply, val_main_v50_apply, val_main_cst_8_apply, val_main_v49_apply, val_main_v47_apply, val_main_v48_apply,
    v6_at, v8_at, v10_at, v12_at]
  rfl
theorem v56_at (n : Fin 4000000) : val_main_v56 (F := Ideal) x1 (ix1 n) = rot (unit (quat x1 n)) 7 := by
  rw [val_main_v56_apply, val_main_v55_apply, val_main_cst_9_apply, val_main_v54_apply, val_main_v52_apply, val_main_v53_apply,
    v6_at, v8_at, v10_at, v12_at]
  rfl
theorem v63_at (n : Fin 4000000) : val_main_v63 (F := Ideal) x1 (ix1 n) = rot (unit (quat x1 n)) 8 := by
  rw [val_main_v63_apply, val_main_v62_apply, val_main_cst_11_apply, val_main_v61_apply, val_main_v60_apply, val_main_cst_10_apply, val_main_v59_apply, val_main_v57_apply, val_main_v58_apply,
    v8_at, v10_at]
  rfl

/-- The nine entries side by side: entry `(n, c)` is rotation entry `c` of row `n`. -/
theorem v73_at (n : Fin 4000000) (c : Fin 9) : val_main_v73 (F := Ideal) x1 (ix2 n c) = rot (unit (quat x1 n)) c := by
  unfold val_main_v73
  refine (cat9_sel (a := 4000000) _ _ _ _ _ _ _ _ _ _ n c).trans ?_
  match c with
  | ⟨0, h⟩ =>
    rw [sel9_0, val_main_v64_apply, show idx_main_v64 (ix2 n (0 : Fin 1)) = ix1 n from funext fun a => Fin.ext (by match a with | ⟨0, _⟩ => rfl)]
    exact v19_at x1 n
  | ⟨1, h⟩ =>
    rw [sel9_1, val_main_v65_apply, show idx_main_v65 (ix2 n (0 : Fin 1)) = ix1 n from funext fun a => Fin.ext (by match a with | ⟨0, _⟩ => rfl)]
    exact v24_at x1 n
  | ⟨2, h⟩ =>
    rw [sel9_2, val_main_v66_apply, show idx_main_v66 (ix2 n (0 : Fin 1)) = ix1 n from funext fun a => Fin.ext (by match a with | ⟨0, _⟩ => rfl)]
    exact v29_at x1 n
  | ⟨3, h⟩ =>
    rw [sel9_3, val_main_v67_apply, show idx_main_v67 (ix2 n (0 : Fin 1)) = ix1 n from funext fun a => Fin.ext (by match a with | ⟨0, _⟩ => rfl)]
    exact v34_at x1 n
  | ⟨4, h⟩ =>
    rw [sel9_4, val_main_v68_apply, show idx_main_v68 (ix2 n (0 : Fin 1)) = ix1 n from funext fun a => Fin.ext (by match a with | ⟨0, _⟩ => rfl)]
    exact v41_at x1 n
  | ⟨5, h⟩ =>
    rw [sel9_5, val_main_v69_apply, show idx_main_v69 (ix2 n (0 : Fin 1)) = ix1 n from funext fun a => Fin.ext (by match a with | ⟨0, _⟩ => rfl)]
    exact v46_at x1 n
  | ⟨6, h⟩ =>
    rw [sel9_6, val_main_v70_apply, show idx_main_v70 (ix2 n (0 : Fin 1)) = ix1 n from funext fun a => Fin.ext (by match a with | ⟨0, _⟩ => rfl)]
    exact v51_at x1 n
  | ⟨7, h⟩ =>
    rw [sel9_7, val_main_v71_apply, show idx_main_v71 (ix2 n (0 : Fin 1)) = ix1 n from funext fun a => Fin.ext (by match a with | ⟨0, _⟩ => rfl)]
    exact v56_at x1 n
  | ⟨8, h⟩ =>
    rw [sel9_8, val_main_v72_apply, show idx_main_v72 (ix2 n (0 : Fin 1)) = ix1 n from funext fun a => Fin.ext (by match a with | ⟨0, _⟩ => rfl)]
    exact v63_at x1 n

/-- Regrouped three by three: entry `(n, p, j)` is rotation entry `3 p + j`. -/
theorem v74_at (n : Fin 4000000) (p j : Fin 3) : val_main_v74 (F := Ideal) x1 (ix3 n p j) = rot (unit (quat x1 n)) (c9 p j) := by
  have hp := p.isLt
  have hj := j.isLt
  rw [val_main_v74_apply, show idx_main_v74 (ix3 n p j) = ix2 n (c9 p j) from funext fun a => Fin.ext (by
    match a with
    | ⟨0, _⟩ => show ((n.val * 3 + p.val) * 3 + j.val) / 9 = n.val; omega
    | ⟨1, _⟩ => show ((n.val * 3 + p.val) * 3 + j.val) % 9 = p.val * 3 + j.val; omega)]
  exact v73_at x1 n (c9 p j)

/-! ## The scales, the scaled rotation, the contraction -/

theorem v76_at (n : Fin 4000000) (p j : Fin 3) : val_main_v76 (F := Ideal) x0 (ix3 n p j) = scales x0 n j := by
  rw [val_main_v76_apply, val_main_v75_apply, val_main_v0_apply, show idx_main_v75 (idx_main_v76 (ix3 n p j)) = ix2 n j from
    funext fun a => Fin.ext (by match a with | ⟨0, _⟩ => rfl | ⟨1, _⟩ => rfl)]
  rfl

theorem v77_at (n : Fin 4000000) (p j : Fin 3) :
    val_main_v77 (F := Ideal) x0 x1 (ix3 n p j) = rs (scales x0 n) (unit (quat x1 n)) p j := by
  rw [val_main_v77_apply, v74_at, v76_at]; rfl

/-- The reference's result is `Cov.result` of the two argument arrays. -/
theorem ref_eq : val_main_v78 (F := Ideal) x0 x1 = result x0 x1 := by
  funext i
  obtain ⟨n, p, q, rfl⟩ : ∃ (n : Fin 4000000) (p q : Fin 3), i = ix3 n p q := ⟨i 0, i 1, i 2, eq_ix3 i⟩
  rw [val_main_v78_apply, result_ix3]
  unfold cov
  refine Finset.sum_congr rfl fun k _ => ?_
  rw [show lidx_main_v78 (ix3 n p q) k = ix3 n p k from funext fun a => Fin.ext (by match a with | ⟨0, _⟩ => rfl | ⟨1, _⟩ => rfl | ⟨2, _⟩ => rfl),
    show ridx_main_v78 (ix3 n p q) k = ix3 n q k from funext fun a => Fin.ext (by match a with | ⟨0, _⟩ => rfl | ⟨1, _⟩ => rfl | ⟨2, _⟩ => rfl),
    v77_at, v77_at]

end Cert.ReferenceIdeal.RefValue

end
-- ==== Proof.lean ====
/-
  The covariance of 4,000,000 anisotropic Gaussians: for each row, three log-scales and a quaternion give
  `(R S)(R S)ᵀ`, with `R` the rotation of the quaternion divided by its norm (clamped from below at a positive
  threshold) and `S` the diagonal matrix of the exponentials of the log-scales.

  The kernel computes it 8000 rows at a time: it multiplies the quaternion by the reciprocal of the clamped norm,
  writes the nine entries of `R S` and the six distinct dot products of its rows as explicit three-term sums, and
  lays the nine entries of the symmetric result side by side; the host regroups them three by three. The reference
  divides by the clamped norm, stacks the rotation, scales its columns and contracts `R S` with itself over the column
  index. On the extended reals the two are one function of the arguments (`Cov.result`, Proof/Spec.lean):
    * the clamped norm is at least the threshold, hence not zero, so the quotient by it and the product with its
      reciprocal are both the product with its inverse, at the infinities too — no finiteness of the inputs is used;
    * the square root, the exponential, the maximum and the constants read the same on both sides;
    * a three-term sum in either order of association and the product in either order are equal there.
  Proof/KBody.lean reads the kernel's body at an entry, Proof/KValue.lean the blocks, the array after the region and the
  host's regrouping; Proof/RefValue.lean reads the reference at an entry. The idealization rewrote nothing, so
  `preserves` has nothing to state.
-/
import proofs.«149386_j14929306321119_1_alg».proof.Defs
import proofs.«149386_j14929306321119_1_alg».proof.Proof.Gen.Kernel
import proofs.«149386_j14929306321119_1_alg».proof.Proof.Gen.Kernel.Skeleton
import proofs.«149386_j14929306321119_1_alg».proof.Proof.Gen.Kernel.Launch
import proofs.«149386_j14929306321119_1_alg».proof.Proof.Gen.Kernel.Points
import proofs.«149386_j14929306321119_1_alg».proof.Proof.Gen.Kernel.Frame
import proofs.«149386_j14929306321119_1_alg».proof.Proof.Gen.KernelIdeal
import proofs.«149386_j14929306321119_1_alg».proof.Proof.Gen.KernelIdeal.Skeleton
import proofs.«149386_j14929306321119_1_alg».proof.Proof.Gen.KernelIdeal.Launch
import proofs.«149386_j14929306321119_1_alg».proof.Proof.Gen.KernelIdeal.Points
import proofs.«149386_j14929306321119_1_alg».proof.Proof.Gen.KernelIdeal.Frame
import proofs.«149386_j14929306321119_1_alg».proof.Proof.Gen.ReferenceIdeal
import proofs.«149386_j14929306321119_1_alg».proof.Proof.Gen.Pre_finite_inputs
import proofs.«149386_j14929306321119_1_alg».proof.Proof.Gen.ReferenceIdeal.Run
import proofs.«149386_j14929306321119_1_alg».proof.Proof.Gen.ReferenceIdeal.Read
import proofs.«149386_j14929306321119_1_alg».proof.Proof.KValue
import proofs.«149386_j14929306321119_1_alg».proof.Proof.RefValue
import Idealize.ShloMosaic.Adequacy
import Idealize.ShloMosaic.Init

noncomputable section

namespace Cert.Proof

open Idealize.ShloMosaic Idealize.SL.Sem

/-- The three programs run, fault-free, and leave their arguments as they found them. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both idealized programs end with `Cov.result` of the (agreeing) argument arrays. -/
theorem algebraic : Cert.algebraic_KernelIdeal_ReferenceIdeal := by
  intro m ρ m' ρ' _ hagree
  refine ⟨fun c => Cert.Cov.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
